-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 55
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x64, .f32⟩
  | .hbm, ⟨54, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageSpec.lean ====
/-
  Two layers of a graph convolution that averages over neighbours.

  There are 50000 nodes with 128 features each. One layer is given, per node, the SUM `agg` of the neighbours'
  feature rows, the neighbour COUNT `deg`, the node's own row `x`, two weight matrices and a bias, and returns at
  node `p` and output column `q`

      ∑ k, (agg (p,k) / max (deg p) 1) * Wl (k,q)  +  ∑ k, x (p,k) * Wr (k,q)  +  b q .

  The first layer clamps this below at 0; the second does not.

  One program forms the mean as the quotient `agg / max deg 1`; the other multiplies `agg` by the reciprocal
  `1 / max deg 1`, computed once per node and kept as a column, and keeps the bias as a one-row matrix. On the
  extended reals the two agree for EVERY value of `agg` and `deg`: the divisor `e = max d 1` is at least 1, hence
  not zero; off zero the quotient `a / e` is by definition the product `a * e⁻¹`, and `1 / e = 1 * e⁻¹ = e⁻¹`.
  No finiteness of any input is used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Multiplying by the reciprocal of a count clamped at 1 is dividing by that clamped count, on all extended reals:
    the clamped count is not zero, so both sides are `a * (max d 1)⁻¹`. -/
theorem mul_recip_eq_div (a d : EReal) : a * Ideal.div 1 (max d 1) = Ideal.div a (max d 1) := by
  have h : max d 1 ≠ 0 := ne_of_gt (lt_of_lt_of_le zero_lt_one (le_max_right d 1))
  unfold Ideal.div
  rw [if_neg h, if_neg h, one_mul]

/-- The float literal 1.0 denotes the real number 1. -/
theorem ofBits_one : Ideal.ofBits .f32 0x3F800000#32 = 1 := by
  simp [Ideal.ofBits, Ideal.ieee]
  first
    | (rw [← EReal.coe_mul]; norm_num)
    | (norm_cast; norm_num)

variable {D : ℕ}

/-- One layer before its activation at node `p`, column `q`: the mean of the neighbours formed as a QUOTIENT. -/
def pre (agg x : (⟨2, ![50000, 128]⟩ : Shape).Idx → EReal) (deg : (⟨1, ![50000]⟩ : Shape).Idx → EReal)
    (Wl Wr : (⟨2, ![128, D]⟩ : Shape).Idx → EReal) (b : (⟨1, ![D]⟩ : Shape).Idx → EReal) (p : Fin 50000) (q : Fin D) : EReal :=
  (∑ k : Fin 128, Ideal.div (agg (ix2 p k)) (max (deg (ix1 p)) 1) * Wl (ix2 k q))
    + (∑ k : Fin 128, x (ix2 p k) * Wr (ix2 k q)) + b (ix1 q)

/-- The same layer with the mean formed by a per-node RECIPROCAL column `inv` and the bias held as a one-row matrix. -/
def preK (agg : (⟨2, ![50000, 128]⟩ : Shape).Idx → EReal) (inv : (⟨2, ![50000, 1]⟩ : Shape).Idx → EReal)
    (x : (⟨2, ![50000, 128]⟩ : Shape).Idx → EReal) (Wl Wr : (⟨2, ![128, D]⟩ : Shape).Idx → EReal)
    (bb : (⟨2, ![1, D]⟩ : Shape).Idx → EReal) (p : Fin 50000) (q : Fin D) : EReal :=
  (∑ k : Fin 128, (agg (ix2 p k) * inv (ix2 p 0)) * Wl (ix2 k q))
    + (∑ k : Fin 128, x (ix2 p k) * Wr (ix2 k q)) + bb (ix2 0 q)

/-- When the column holds the reciprocals of the clamped counts and the one-row matrix holds the bias, the two forms
    of the layer are equal entry by entry. -/
theorem preK_eq_pre (agg x : (⟨2, ![50000, 128]⟩ : Shape).Idx → EReal) (inv : (⟨2, ![50000, 1]⟩ : Shape).Idx → EReal)
    (deg : (⟨1, ![50000]⟩ : Shape).Idx → EReal) (Wl Wr : (⟨2, ![128, D]⟩ : Shape).Idx → EReal)
    (bb : (⟨2, ![1, D]⟩ : Shape).Idx → EReal) (b : (⟨1, ![D]⟩ : Shape).Idx → EReal)
    (hinv : ∀ p : Fin 50000, inv (ix2 p 0) = Ideal.div 1 (max (deg (ix1 p)) 1))
    (hb : ∀ q : Fin D, bb (ix2 0 q) = b (ix1 q)) (p : Fin 50000) (q : Fin D) :
    preK agg inv x Wl Wr bb p q = pre agg x deg Wl Wr b p q := by
  simp only [preK, pre, hinv, hb, mul_recip_eq_div]

/-- The first layer's result: clamped below at 0. -/
def hidden (agg x : (⟨2, ![50000, 128]⟩ : Shape).Idx → EReal) (deg : (⟨1, ![50000]⟩ : Shape).Idx → EReal)
    (Wl Wr : (⟨2, ![128, 128]⟩ : Shape).Idx → EReal) (b : (⟨1, ![128]⟩ : Shape).Idx → EReal) :
    (⟨2, ![50000, 128]⟩ : Shape).Idx → EReal :=
  fun j => max (pre agg x deg Wl Wr b (j 0) (j 1)) 0

/-- The second layer's result: no clamp. -/
def output (agg x : (⟨2, ![50000, 128]⟩ : Shape).Idx → EReal) (deg : (⟨1, ![50000]⟩ : Shape).Idx → EReal)
    (Wl Wr : (⟨2, ![128, 64]⟩ : Shape).Idx → EReal) (b : (⟨1, ![64]⟩ : Shape).Idx → EReal) :
    (⟨2, ![50000, 64]⟩ : Shape).Idx → EReal :=
  fun j => pre agg x deg Wl Wr b (j 0) (j 1)

/-- The first layer in the reciprocal-column form. -/
def hiddenK (agg : (⟨2, ![50000, 128]⟩ : Shape).Idx → EReal) (inv : (⟨2, ![50000, 1]⟩ : Shape).Idx → EReal)
    (x : (⟨2, ![50000, 128]⟩ : Shape).Idx → EReal) (Wl Wr : (⟨2, ![128, 128]⟩ : Shape).Idx → EReal)
    (bb : (⟨2, ![1, 128]⟩ : Shape).Idx → EReal) : (⟨2, ![50000, 128]⟩ : Shape).Idx → EReal :=
  fun j => max (preK agg inv x Wl Wr bb (j 0) (j 1)) 0

/-- The second layer in the reciprocal-column form. -/
def outputK (agg : (⟨2, ![50000, 128]⟩ : Shape).Idx → EReal) (inv : (⟨2, ![50000, 1]⟩ : Shape).Idx → EReal)
    (x : (⟨2, ![50000, 128]⟩ : Shape).Idx → EReal) (Wl Wr : (⟨2, ![128, 64]⟩ : Shape).Idx → EReal)
    (bb : (⟨2, ![1, 64]⟩ : Shape).Idx → EReal) : (⟨2, ![50000, 64]⟩ : Shape).Idx → EReal :=
  fun j => preK agg inv x Wl Wr bb (j 0) (j 1)

theorem hiddenK_eq_hidden (agg x : (⟨2, ![50000, 128]⟩ : Shape).Idx → EReal) (inv : (⟨2, ![50000, 1]⟩ : Shape).Idx → EReal)
    (deg : (⟨1, ![50000]⟩ : Shape).Idx → EReal) (Wl Wr : (⟨2, ![128, 128]⟩ : Shape).Idx → EReal)
    (bb : (⟨2, ![1, 128]⟩ : Shape).Idx → EReal) (b : (⟨1, ![128]⟩ : Shape).Idx → EReal)
    (hinv : ∀ p : Fin 50000, inv (ix2 p 0) = Ideal.div 1 (max (deg (ix1 p)) 1))
    (hb : ∀ q : Fin 128, bb (ix2 0 q) = b (ix1 q)) :
    hiddenK agg inv x Wl Wr bb = hidden agg x deg Wl Wr b :=
  funext fun j => congrArg (max · 0) (preK_eq_pre agg x inv deg Wl Wr bb b hinv hb (j 0) (j 1))

theorem outputK_eq_output (agg x : (⟨2, ![50000, 128]⟩ : Shape).Idx → EReal) (inv : (⟨2, ![50000, 1]⟩ : Shape).Idx → EReal)
    (deg : (⟨1, ![50000]⟩ : Shape).Idx → EReal) (Wl Wr : (⟨2, ![128, 64]⟩ : Shape).Idx → EReal)
    (bb : (⟨2, ![1, 64]⟩ : Shape).Idx → EReal) (b : (⟨1, ![64]⟩ : Shape).Idx → EReal)
    (hinv : ∀ p : Fin 50000, inv (ix2 p 0) = Ideal.div 1 (max (deg (ix1 p)) 1))
    (hb : ∀ q : Fin 64, bb (ix2 0 q) = b (ix1 q)) :
    outputK agg inv x Wl Wr bb = output agg x deg Wl Wr b :=
  funext fun j => preK_eq_pre agg x inv deg Wl Wr bb b hinv hb (j 0) (j 1)

end Cert.Sage

end
-- ==== Proof.RefValue.lean ====
/-
  The reference program, layer by layer, is the averaging graph convolution of the specification.

  The reference's first layer divides the neighbour sums by the neighbour counts clamped at 1 (the clamped counts broadcast
  first to a column and then across the 128 features), multiplies by the first weight matrix, adds the node rows times the
  second weight matrix and the bias broadcast down the rows, and clamps below at 0. Read at node `p` and column `q`,
  with each matrix product a sum over the 128 features, this is the specification's first layer of the reference's own
  neighbour sums and counts. The second layer is the same over the first layer's result, with 64 output columns and no clamp.
  The literal 1.0 the counts are clamped at denotes the real 1.
-/
import proofs.«133844_j73495480369260_1_alg».proof.Proof.Gen.ReferenceIdeal.Run
import proofs.«133844_j73495480369260_1_alg».proof.Proof.Gen.ReferenceIdeal.Read
import proofs.«133844_j73495480369260_1_alg».proof.Proof.SageSpec

noncomputable section

namespace Cert.ReferenceIdeal.RefValue

open Cert.ReferenceIdeal Cert.ReferenceIdeal.Read Idealize.ShloMosaic Idealize.ShloMosaic.ValueIdx

/-- The reference's first layer is the specification's, of the reference's own neighbour sums and counts. -/
theorem hidden_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = Sage.hidden (val_main_v13 (F := Ideal) x0 x1) x0 (val_main_v17 (F := Ideal) x1) x2 x3 x4 := by
  funext i
  obtain ⟨p, q, rfl⟩ : ∃ (p : Fin 50000) (q : Fin 128), i = ix2 p q := ⟨i 0, i 1, eq_ix2 i⟩
  rw [val_main_v29_apply, val_main_v28_apply, val_main_v25_apply, val_main_v23_apply, val_main_v24_apply,
    val_main_v27_apply, val_main_v26_apply, val_main_call0_v0_apply, val_main_call0_cst_apply]
  have hmean : ∀ k : Fin 128, val_main_v22 (F := Ideal) x0 x1 (lidx_main_v23 (ix2 p q) k) * x2 (ridx_main_v23 (ix2 p q) k)
      = Ideal.div (val_main_v13 (F := Ideal) x0 x1 (ix2 p k)) (max (val_main_v17 (F := Ideal) x1 (ix1 p)) 1) * x2 (ix2 k q) := by
    intro k
    have hl : lidx_main_v23 (ix2 p q) k = ix2 p k :=
      funext fun a => Fin.ext (by match a with | ⟨0, _⟩ => rfl | ⟨1, _⟩ => rfl)
    have hr : ridx_main_v23 (ix2 p q) k = ix2 k q :=
      funext fun a => Fin.ext (by match a with | ⟨0, _⟩ => rfl | ⟨1, _⟩ => rfl)
    have hd : idx_main_v20 (idx_main_v21 (ix2 p k)) = ix1 p :=
      funext fun a => Fin.ext (by match a with | ⟨0, _⟩ => rfl)
    rw [hl, hr, val_main_v22_apply, val_main_v21_apply, val_main_v20_apply, val_main_v19_apply, val_main_v18_apply,
      val_main_cst_3_apply, hd, Ideal.hostDivf_def, Ideal.maximumf_def, Ideal.ofBits_def, Sage.ofBits_one]
  have hself : ∀ k : Fin 128, x0 (lidx_main_v24 (ix2 p q) k) * x3 (ridx_main_v24 (ix2 p q) k) = x0 (ix2 p k) * x3 (ix2 k q) := by
    intro k
    have hl : lidx_main_v24 (ix2 p q) k = ix2 p k :=
      funext fun a => Fin.ext (by match a with | ⟨0, _⟩ => rfl | ⟨1, _⟩ => rfl)
    have hr : ridx_main_v24 (ix2 p q) k = ix2 k q :=
      funext fun a => Fin.ext (by match a with | ⟨0, _⟩ => rfl | ⟨1, _⟩ => rfl)
    rw [hl, hr]
  have hbias : idx_main_v26 (idx_main_v27 (ix2 p q)) = ix1 q :=
    funext fun a => Fin.ext (by match a with | ⟨0, _⟩ => rfl)
  rw [Finset.sum_congr rfl fun k _ => hmean k, Finset.sum_congr rfl fun k _ => hself k, hbias,
    Ideal.maximumf_def, Ideal.addf_def, Ideal.addf_def, Ideal.ofBits_def, Ideal.ofBits_zero_f32]
  rfl

/-- The reference's second layer is the specification's, of the neighbour sums of the first layer's result. -/
theorem output_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = Sage.output (val_main_v39 (F := Ideal) x0 x1 x2 x3 x4) (val_main_v29 (F := Ideal) x0 x1 x2 x3 x4)
          (val_main_v43 (F := Ideal) x1) x5 x6 x7 := by
  funext i
  obtain ⟨p, q, rfl⟩ : ∃ (p : Fin 50000) (q : Fin 64), i = ix2 p q := ⟨i 0, i 1, eq_ix2 i⟩
  rw [val_main_v54_apply, val_main_v51_apply, val_main_v49_apply, val_main_v50_apply, val_main_v53_apply,
    val_main_v52_apply]
  have hmean : ∀ k : Fin 128, val_main_v48 (F := Ideal) x0 x1 x2 x3 x4 (lidx_main_v49 (ix2 p q) k) * x5 (ridx_main_v49 (ix2 p q) k)
      = Ideal.div (val_main_v39 (F := Ideal) x0 x1 x2 x3 x4 (ix2 p k)) (max (val_main_v43 (F := Ideal) x1 (ix1 p)) 1) * x5 (ix2 k q) := by
    intro k
    have hl : lidx_main_v49 (ix2 p q) k = ix2 p k :=
      funext fun a => Fin.ext (by match a with | ⟨0, _⟩ => rfl | ⟨1, _⟩ => rfl)
    have hr : ridx_main_v49 (ix2 p q) k = ix2 k q :=
      funext fun a => Fin.ext (by match a with | ⟨0, _⟩ => rfl | ⟨1, _⟩ => rfl)
    have hd : idx_main_v46 (idx_main_v47 (ix2 p k)) = ix1 p :=
      funext fun a => Fin.ext (by match a with | ⟨0, _⟩ => rfl)
    rw [hl, hr, val_main_v48_apply, val_main_v47_apply, val_main_v46_apply, val_main_v45_apply, val_main_v44_apply,
      val_main_cst_9_apply, hd, Ideal.hostDivf_def, Ideal.maximumf_def, Ideal.ofBits_def, Sage.ofBits_one]
  have hself : ∀ k : Fin 128, val_main_v29 (F := Ideal) x0 x1 x2 x3 x4 (lidx_main_v50 (ix2 p q) k) * x6 (ridx_main_v50 (ix2 p q) k)
      = val_main_v29 (F := Ideal) x0 x1 x2 x3 x4 (ix2 p k) * x6 (ix2 k q) := by
    intro k
    have hl : lidx_main_v50 (ix2 p q) k = ix2 p k :=
      funext fun a => Fin.ext (by match a with | ⟨0, _⟩ => rfl | ⟨1, _⟩ => rfl)
    have hr : ridx_main_v50 (ix2 p q) k = ix2 k q :=
      funext fun a => Fin.ext (by match a with | ⟨0, _⟩ => rfl | ⟨1, _⟩ => rfl)
    rw [hl, hr]
  have hbias : idx_main_v52 (idx_main_v53 (ix2 p q)) = ix1 q :=
    funext fun a => Fin.ext (by match a with | ⟨0, _⟩ => rfl)
  rw [Finset.sum_congr rfl fun k _ => hmean k, Finset.sum_congr rfl fun k _ => hself k, hbias,
    Ideal.addf_def, Ideal.addf_def]
  rfl

end Cert.ReferenceIdeal.RefValue

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KernelBody.lean ====
/-
  What one grid point's body computes, entry by entry.

  A block is 2000 consecutive node rows. The body of the first kernel, given the block's rows `a` of neighbour sums, the
  block's column `s` of reciprocal counts, the block's rows `x` of node features, the two 128 × 128 weight matrices and the
  bias as a one-row matrix `β`, stores at row `r` and column `q`

      max (∑ k, (a (r,k) * s (r,0)) * Wl (k,q) + ∑ k, x (r,k) * Wr (k,q) + β (0,q)) 0 :

  the column is broadcast along each row and multiplied in, the two matrix products go into zero accumulators, the one-row
  bias is broadcast down the rows, and the narrowing of the products' operands to a shorter float format is the identity
  on the extended reals. The second kernel's body is the same with 128 × 64 weights and without the clamp at 0.
-/
import proofs.«133844_j73495480369260_1_alg».proof.Proof.Gen.KernelIdeal.Skeleton
import proofs.«133844_j73495480369260_1_alg».proof.Proof.LibPlainDot
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen

variable {α : Type}

/-- A column broadcast along the rows: entry (r, k) of the result is entry (r, 0) of the column. -/
theorem bcast_col {C : ℕ} (v : (⟨2, ![2000, 1]⟩ : Shape).Idx → α)
    (h : (⟨2, ![2000, 1]⟩ : Shape).Broadcasts ⟨2, ![2000, C]⟩) (r : Fin 2000) (k : Fin C) :
    broadcastTo (⟨2, ![2000, C]⟩ : Shape) v h (ix2 r k) = v (ix2 r 0) :=
  broadcastTo_apply v h (ix2 r k) (ix2 r 0) (fun a => match a with
    | ⟨0, _⟩ => by show r.val = if (2000 : ℕ) = 1 then 0 else r.val; rw [if_neg (by decide)]
    | ⟨1, _⟩ => by show 0 = if (1 : ℕ) = 1 then 0 else k.val; rw [if_pos rfl])

/-- A one-row matrix broadcast down the rows: entry (r, q) of the result is entry (0, q) of the row. -/
theorem bcast_row {C : ℕ} (hC : C ≠ 1) (v : (⟨2, ![1, C]⟩ : Shape).Idx → α)
    (h : (⟨2, ![1, C]⟩ : Shape).Broadcasts ⟨2, ![2000, C]⟩) (r : Fin 2000) (q : Fin C) :
    broadcastTo (⟨2, ![2000, C]⟩ : Shape) v h (ix2 r q) = v (ix2 0 q) :=
  broadcastTo_apply v h (ix2 r q) (ix2 0 q) (fun a => match a with
    | ⟨0, _⟩ => by show 0 = if (1 : ℕ) = 1 then 0 else r.val; rw [if_pos rfl]
    | ⟨1, _⟩ => by show q.val = if C = 1 then 0 else q.val; rw [if_neg hC])

/-- The first kernel's stored value at row `r`, column `q` of the block. -/
theorem pay0_apply (a : Vec Ideal S2000x128 .f32) (s : Vec Ideal S2000x1 .f32) (x : Vec Ideal S2000x128 .f32)
    (Wl Wr : Vec Ideal S128x128 .f32) (β : Vec Ideal S1x128 .f32) (r : Fin 2000) (q : Fin 128) :
    k0_pay1 (F := Ideal) a s x Wl Wr β (ix2 r q)
      = max ((∑ k : Fin 128, (a (ix2 r k) * s (ix2 r 0)) * Wl (ix2 k q))
          + (∑ k : Fin 128, x (ix2 r k) * Wr (ix2 k q)) + β (ix2 0 q)) 0 := by
  unfold k0_pay1
  simp only [maximumf_apply, addf_apply, broadcast_apply, matmul]
  rw [Cert.PlainDot.matmul_zero_apply dot_S2000x128_S128x128_S2000x128_1_0_0_1_n_n rfl rfl rfl rfl rfl rfl,
    Cert.PlainDot.matmul_zero_apply dot_S2000x128_S128x128_S2000x128_1_0_0_1_n_n rfl rfl rfl rfl rfl rfl,
    bcast_row (by decide)]
  simp only [truncf_apply, mulf_apply, shapeCast_self, bcast_col]
  rw [Ideal.ofBits_def, Ideal.ofBits_zero_f32]

/-- The second kernel's stored value at row `r`, column `q` of the block. -/
theorem pay1_apply (a : Vec Ideal S2000x128 .f32) (s : Vec Ideal S2000x1 .f32) (x : Vec Ideal S2000x128 .f32)
    (Wl Wr : Vec Ideal S128x64 .f32) (β : Vec Ideal S1x64 .f32) (r : Fin 2000) (q : Fin 64) :
    k1_pay1 (F := Ideal) a s x Wl Wr β (ix2 r q)
      = (∑ k : Fin 128, (a (ix2 r k) * s (ix2 r 0)) * Wl (ix2 k q))
          + (∑ k : Fin 128, x (ix2 r k) * Wr (ix2 k q)) + β (ix2 0 q) := by
  unfold k1_pay1
  simp only [addf_apply, matmul]
  rw [Cert.PlainDot.matmul_zero_apply dot_S2000x128_S128x64_S2000x64_1_0_0_1_n_n rfl rfl rfl rfl rfl rfl,
    Cert.PlainDot.matmul_zero_apply dot_S2000x128_S128x64_S2000x64_1_0_0_1_n_n rfl rfl rfl rfl rfl rfl,
    bcast_row (by decide)]
  simp only [truncf_apply, mulf_apply, shapeCast_self, bcast_col]

end Cert.KernelIdeal.Body

end
-- ==== Proof.KernelRegion0.lean ====
/-
  From blocks to the array: what the first kernel leaves in its output array.

  The kernel walks the 50000 node rows in 25 blocks of 2000. At grid point `t` the three row-blocked inputs (neighbour
  sums, reciprocal column, node rows) and the output are at rows `2000 t … 2000 t + 1999`; the two weight matrices and the
  one-row bias are read whole at every point. So row `r` of what point `t` stores is the layer's value at node
  `2000 t + r`, computed from that node's own rows only, and since the 25 blocks tile the 50000 rows the output array ends
  as the layer's function of the input arrays, node by node. This holds whatever the arrays hold when the kernel is entered.
-/
import proofs.«133844_j73495480369260_1_alg».proof.Proof.Gen.KernelIdeal.Frame
import proofs.«133844_j73495480369260_1_alg».proof.Proof.KernelBody
import proofs.«133844_j73495480369260_1_alg».proof.Proof.SageSpec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

-- the contents of the core's buffers when the kernel is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 25 grid points: the three row-blocked inputs and the output sit at block
    (t, 0); the two weight matrices and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 25 := t.isLt

/-- Row `r` of point `t`'s block of neighbour sums is row `2000 t + r` of the array. -/
theorem read0_0 (c : Dev nD) (t : Fin cfg0.N) (r : Fin 2000) (k : Fin 128) :
    iblk0 V c 0 t (ix2 r k) = V c main_v22 (ix2 (⟨t.val * 2000 + r.val, by have := tlt0 t; omega⟩ : Fin 50000) k) := by
  obtain ⟨e0, e1, -⟩ := idx0 t
  show V c main_v22 (((cfg0.win 0).blk t).view.emb (ix2 r k)) = _
  refine congrArg (V c main_v22) (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

/-- Row `r` of point `t`'s block of the reciprocal column is row `2000 t + r` of the column. -/
theorem read0_1 (c : Dev nD) (t : Fin cfg0.N) (r : Fin 2000) :
    iblk0 V c 1 t (ix2 r 0) = V c main_v12 (ix2 (⟨t.val * 2000 + r.val, by have := tlt0 t; omega⟩ : Fin 50000) 0) := by
  obtain ⟨-, -, e2, e3, -⟩ := idx0 t
  show V c main_v12 (((cfg0.win 1).blk t).view.emb (ix2 r 0)) = _
  refine congrArg (V c main_v12) (funext fun a => Fin.ext ?_)
  match a with
  | ⟨0, _⟩ => show win0_1.index t (0 : Fin 2) * 2000 + 1 * r.val = t.val * 2000 + r.val; omega
  | ⟨1, _⟩ => show win0_1.index t (1 : Fin 2) * 1 + 1 * 0 = 0; omega

/-- Row `r` of point `t`'s block of node rows is row `2000 t + r` of the array. -/
theorem read0_2 (c : Dev nD) (t : Fin cfg0.N) (r : Fin 2000) (k : Fin 128) :
    iblk0 V c 2 t (ix2 r k) = V c main_arg0 (ix2 (⟨t.val * 2000 + r.val, by have := tlt0 t; omega⟩ : Fin 50000) k) := by
  obtain ⟨-, -, -, -, e4, e5, -⟩ := idx0 t
  show V c main_arg0 (((cfg0.win 2).blk t).view.emb (ix2 r k)) = _
  refine congrArg (V c main_arg0) (funext fun a => Fin.ext ?_)
  match a with
  | ⟨0, _⟩ => show win0_2.index t (0 : Fin 2) * 2000 + 1 * r.val = t.val * 2000 + r.val; omega
  | ⟨1, _⟩ => show win0_2.index t (1 : Fin 2) * 128 + 1 * k.val = k.val; omega

/-- The first weight matrix is resident: every point reads the whole of it. -/
theorem read0_3 (c : Dev nD) (t : Fin cfg0.N) (k : Fin 128) (q : Fin 128) :
    iblk0 V c 3 t (ix2 k q) = V c main_arg2 (ix2 k q) := by
  obtain ⟨-, -, -, -, -, -, e6, e7, -⟩ := idx0 t
  show V c main_arg2 (((cfg0.win 3).blk t).view.emb (ix2 k q)) = _
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- So is the second. -/
theorem read0_4 (c : Dev nD) (t : Fin cfg0.N) (k : Fin 128) (q : Fin 128) :
    iblk0 V c 4 t (ix2 k q) = V c main_arg3 (ix2 k q) := by
  obtain ⟨-, -, -, -, -, -, -, -, e8, e9, -⟩ := idx0 t
  show V c main_arg3 (((cfg0.win 4).blk t).view.emb (ix2 k q)) = _
  refine congrArg (V c main_arg3) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- And the one-row bias. -/
theorem read0_5 (c : Dev nD) (t : Fin cfg0.N) (q : Fin 128) :
    iblk0 V c 5 t (ix2 0 q) = V c main_v23 (ix2 0 q) := by
  obtain ⟨-, -, -, -, -, -, -, -, -, -, e10, e11, -⟩ := idx0 t
  show V c main_v23 (((cfg0.win 5).blk t).view.emb (ix2 0 q)) = _
  refine congrArg (V c main_v23) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- WHAT POINT `t` WRITES BACK is block `t` of the layer's whole-array function of the arrays as the region finds them. -/
theorem flushed0 (c : Dev nD) (t : Fin cfg0.N) :
    (dat0 (F := Ideal) V c).flushed 6 t = ((cfg0.win 6).blk t).view.read (Elt Ideal)
      (Sage.hiddenK (V c main_v22) (V c main_v12) (V c main_arg0) (V c main_arg2) (V c main_arg3) (V c main_v23)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  have e := idx0 t
  have hemb : ((cfg0.win 6).blk t).view.emb (ix2 r q)
      = ix2 (⟨t.val * 2000 + r.val, by have := tlt0 t; omega⟩ : Fin 50000) q := by
    funext a; apply Fin.ext
    match a with
    | ⟨0, _⟩ => show win0_6.index t (0 : Fin 2) * 2000 + 1 * r.val = t.val * 2000 + r.val; omega
    | ⟨1, _⟩ => show win0_6.index t (1 : Fin 2) * 128 + 1 * q.val = q.val; omega
  show k0_pay1 (iblk0 V c 0 t) (iblk0 V c 1 t) (iblk0 V c 2 t) (iblk0 V c 3 t) (iblk0 V c 4 t) (iblk0 V c 5 t) (ix2 r q)
    = Sage.hiddenK (V c main_v22) (V c main_v12) (V c main_arg0) (V c main_arg2) (V c main_arg3) (V c main_v23)
        (((cfg0.win 6).blk t).view.emb (ix2 r q))
  rw [hemb]
  refine (Body.pay0_apply (iblk0 V c 0 t) (iblk0 V c 1 t) (iblk0 V c 2 t) (iblk0 V c 3 t) (iblk0 V c 4 t) (iblk0 V c 5 t) r q).trans ?_
  simp only [read0_0 V c t, read0_1 V c t, read0_2 V c t, read0_3 V c t, read0_4 V c t, read0_5 V c t]
  rfl

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- The 25 blocks of 2000 rows tile the 50000 rows: row `i` lies in the block of point `i / 2000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show (i 0).val / 2000 < 25; omega⟩, rfl⟩
  have e := idx0 t
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY the region leaves: the layer's function of the arrays as the region finds them. -/
theorem value0 (c : Dev nD) :
    (dat0 (F := Ideal) V c).arrAt 6 cfg0.N
      = Sage.hiddenK (V c main_v22) (V c main_v12) (V c main_arg0) (V c main_arg2) (V c main_arg3) (V c main_v23) :=
  (dat0 (F := Ideal) V c).arrAt_eq_of_cover 6 _ (fun t _ => flushed0 V c t) cover0

end Cert.KernelIdeal.Region0

end
-- ==== Proof.KernelRegion1.lean ====
/-
  From blocks to the array: what the second kernel leaves in its output array.

  The kernel walks the 50000 node rows in 25 blocks of 2000. At grid point `t` the three row-blocked inputs (neighbour
  sums, reciprocal column, node rows) and the output are at rows `2000 t … 2000 t + 1999`; the two weight matrices and the
  one-row bias are read whole at every point. So row `r` of what point `t` stores is the layer's value at node
  `2000 t + r`, computed from that node's own rows only, and since the 25 blocks tile the 50000 rows the output array ends
  as the layer's function of the input arrays, node by node. This holds whatever the arrays hold when the kernel is entered.
-/
import proofs.«133844_j73495480369260_1_alg».proof.Proof.Gen.KernelIdeal.Frame
import proofs.«133844_j73495480369260_1_alg».proof.Proof.KernelBody
import proofs.«133844_j73495480369260_1_alg».proof.Proof.SageSpec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)

-- the contents of the core's buffers when the kernel is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 25 grid points: the three row-blocked inputs and the output sit at block
    (t, 0); the two weight matrices and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tlt1 (t : Fin cfg1.N) : t.val < 25 := t.isLt

/-- Row `r` of point `t`'s block of neighbour sums is row `2000 t + r` of the array. -/
theorem read1_0 (c : Dev nD) (t : Fin cfg1.N) (r : Fin 2000) (k : Fin 128) :
    iblk1 V c 0 t (ix2 r k) = V c main_v34 (ix2 (⟨t.val * 2000 + r.val, by have := tlt1 t; omega⟩ : Fin 50000) k) := by
  obtain ⟨e0, e1, -⟩ := idx1 t
  show V c main_v34 (((cfg1.win 0).blk t).view.emb (ix2 r k)) = _
  refine congrArg (V c main_v34) (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * k.val = k.val; omega

/-- Row `r` of point `t`'s block of the reciprocal column is row `2000 t + r` of the column. -/
theorem read1_1 (c : Dev nD) (t : Fin cfg1.N) (r : Fin 2000) :
    iblk1 V c 1 t (ix2 r 0) = V c main_v12 (ix2 (⟨t.val * 2000 + r.val, by have := tlt1 t; omega⟩ : Fin 50000) 0) := by
  obtain ⟨-, -, e2, e3, -⟩ := idx1 t
  show V c main_v12 (((cfg1.win 1).blk t).view.emb (ix2 r 0)) = _
  refine congrArg (V c main_v12) (funext fun a => Fin.ext ?_)
  match a with
  | ⟨0, _⟩ => show win1_1.index t (0 : Fin 2) * 2000 + 1 * r.val = t.val * 2000 + r.val; omega
  | ⟨1, _⟩ => show win1_1.index t (1 : Fin 2) * 1 + 1 * 0 = 0; omega

/-- Row `r` of point `t`'s block of node rows is row `2000 t + r` of the array. -/
theorem read1_2 (c : Dev nD) (t : Fin cfg1.N) (r : Fin 2000) (k : Fin 128) :
    iblk1 V c 2 t (ix2 r k) = V c main_v24 (ix2 (⟨t.val * 2000 + r.val, by have := tlt1 t; omega⟩ : Fin 50000) k) := by
  obtain ⟨-, -, -, -, e4, e5, -⟩ := idx1 t
  show V c main_v24 (((cfg1.win 2).blk t).view.emb (ix2 r k)) = _
  refine congrArg (V c main_v24) (funext fun a => Fin.ext ?_)
  match a with
  | ⟨0, _⟩ => show win1_2.index t (0 : Fin 2) * 2000 + 1 * r.val = t.val * 2000 + r.val; omega
  | ⟨1, _⟩ => show win1_2.index t (1 : Fin 2) * 128 + 1 * k.val = k.val; omega

/-- The first weight matrix is resident: every point reads the whole of it. -/
theorem read1_3 (c : Dev nD) (t : Fin cfg1.N) (k : Fin 128) (q : Fin 64) :
    iblk1 V c 3 t (ix2 k q) = V c main_arg5 (ix2 k q) := by
  obtain ⟨-, -, -, -, -, -, e6, e7, -⟩ := idx1 t
  show V c main_arg5 (((cfg1.win 3).blk t).view.emb (ix2 k q)) = _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- So is the second. -/
theorem read1_4 (c : Dev nD) (t : Fin cfg1.N) (k : Fin 128) (q : Fin 64) :
    iblk1 V c 4 t (ix2 k q) = V c main_arg6 (ix2 k q) := by
  obtain ⟨-, -, -, -, -, -, -, -, e8, e9, -⟩ := idx1 t
  show V c main_arg6 (((cfg1.win 4).blk t).view.emb (ix2 k q)) = _
  refine congrArg (V c main_arg6) (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

/-- And the one-row bias. -/
theorem read1_5 (c : Dev nD) (t : Fin cfg1.N) (q : Fin 64) :
    iblk1 V c 5 t (ix2 0 q) = V c main_v35 (ix2 0 q) := by
  obtain ⟨-, -, -, -, -, -, -, -, -, -, e10, e11, -⟩ := idx1 t
  show V c main_v35 (((cfg1.win 5).blk t).view.emb (ix2 0 q)) = _
  refine congrArg (V c main_v35) (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- WHAT POINT `t` WRITES BACK is block `t` of the layer's whole-array function of the arrays as the region finds them. -/
theorem flushed1 (c : Dev nD) (t : Fin cfg1.N) :
    (dat1 (F := Ideal) V c).flushed 6 t = ((cfg1.win 6).blk t).view.read (Elt Ideal)
      (Sage.outputK (V c main_v34) (V c main_v12) (V c main_v24) (V c main_arg5) (V c main_arg6) (V c main_v35)) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x64) hz, View.ld_unit_zero (S := S1x64) hz]
  funext j
  obtain ⟨r, q, rfl⟩ : ∃ (r : Fin 2000) (q : Fin 64), j = ix2 r q := ⟨j 0, j 1, eq_ix2 j⟩
  have e := idx1 t
  have hemb : ((cfg1.win 6).blk t).view.emb (ix2 r q)
      = ix2 (⟨t.val * 2000 + r.val, by have := tlt1 t; omega⟩ : Fin 50000) q := by
    funext a; apply Fin.ext
    match a with
    | ⟨0, _⟩ => show win1_6.index t (0 : Fin 2) * 2000 + 1 * r.val = t.val * 2000 + r.val; omega
    | ⟨1, _⟩ => show win1_6.index t (1 : Fin 2) * 64 + 1 * q.val = q.val; omega
  show k1_pay1 (iblk1 V c 0 t) (iblk1 V c 1 t) (iblk1 V c 2 t) (iblk1 V c 3 t) (iblk1 V c 4 t) (iblk1 V c 5 t) (ix2 r q)
    = Sage.outputK (V c main_v34) (V c main_v12) (V c main_v24) (V c main_arg5) (V c main_arg6) (V c main_v35)
        (((cfg1.win 6).blk t).view.emb (ix2 r q))
  rw [hemb]
  refine (Body.pay1_apply (iblk1 V c 0 t) (iblk1 V c 1 t) (iblk1 V c 2 t) (iblk1 V c 3 t) (iblk1 V c 4 t) (iblk1 V c 5 t) r q).trans ?_
  simp only [read1_0 V c t, read1_1 V c t, read1_2 V c t, read1_3 V c t, read1_4 V c t, read1_5 V c t]
  rfl

/-- An index of the output array is in point `t`'s block iff each coordinate is in the block's range on its axis. -/
theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v36).slice (win1_6.rect t)).set ↔ _
  rw [View.set_slice_whole, Rect.mem_set_unit]
  exact Iff.rfl

/-- The 25 blocks of 2000 rows tile the 50000 rows: row `i` lies in the block of point `i / 2000`. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, by show (i 0).val / 2000 < 25; omega⟩, rfl⟩
  have e := idx1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- THE ARRAY the region leaves: the layer's function of the arrays as the region finds them. -/
theorem value1 (c : Dev nD) :
    (dat1 (F := Ideal) V c).arrAt 6 cfg1.N
      = Sage.outputK (V c main_v34) (V c main_v12) (V c main_v24) (V c main_arg5) (V c main_arg6) (V c main_v35) :=
  (dat1 (F := Ideal) V c).arrAt_eq_of_cover 6 _ (fun t _ => flushed1 V c t) cover1

end Cert.KernelIdeal.Region1

end
-- ==== Proof.KernelValue.lean ====
/-
  The kernel program's result, read back through its two kernels and the operations between them.

  Before the first kernel the program computes, from the edge list, the neighbour counts and from them the column of
  reciprocals `1 / max deg 1`; it gathers each edge's source row of the node features and scatter-adds the rows onto the
  destination nodes (the neighbour sums); and it lays the first bias out as a one-row matrix. These are the same
  operations of the same arguments as the reference's, so the arrays the first kernel is entered with are the reference's
  own neighbour sums and counts. The first kernel then leaves the first layer in its reciprocal-column form, which is the
  quotient form the reference computes because a count clamped at 1 is never zero. Between the kernels the program gathers
  and scatter-adds again, now the rows of the first kernel's output; the reciprocal column, an input of the first kernel,
  is untouched; the second kernel leaves the second layer of those arrays, and that is the reference's result.
-/
import proofs.«133844_j73495480369260_1_alg».proof.Proof.Gen.KernelIdeal.Frame
import proofs.«133844_j73495480369260_1_alg».proof.Proof.Gen.ReferenceIdeal.Read
import proofs.«133844_j73495480369260_1_alg».proof.Proof.SageSpec
import proofs.«133844_j73495480369260_1_alg».proof.Proof.RefValue
import proofs.«133844_j73495480369260_1_alg».proof.Proof.KernelRegion0
import proofs.«133844_j73495480369260_1_alg».proof.Proof.KernelRegion1
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v13 val_main_v17 val_main_v29 val_main_v39 val_main_v43 val_main_v54)

variable (m : (ℓ : Loc nD τ sig) → Buf (Elt Ideal) ℓ) (ρ : Dev nD → PrngReg)

/-! ## Two layout reads -/

/-- Every entry of the scalar literal 1.0 broadcast to a shape is 1. -/
theorem ones_apply (s : Shape) (dims : Fin (⟨0, ![]⟩ : Shape).rank → Fin s.rank)
    (h : (⟨0, ![]⟩ : Shape).BroadcastsInDim s dims) (i : s.Idx) :
    broadcastInDim s dims h (constant (F := Ideal) (⟨0, ![]⟩ : Shape) .f32 0x3F800000#32) i = 1 := by
  rw [broadcastInDim_apply dims h _ i ix0 (fun a => a.elim0), constant_apply, Sage.ofBits_one]

/-- Entry (p, 0) of the column made from "ones over the counts clamped at ones" is `1 / max (deg p) 1`. -/
theorem recip_col_apply (deg one₁ one₂ : (⟨1, ![50000]⟩ : Shape).Idx → EReal) (h₁ : ∀ i, one₁ i = 1) (h₂ : ∀ i, one₂ i = 1)
    (hs : (⟨1, ![50000]⟩ : Shape).ShapeCasts (⟨2, ![50000, 1]⟩ : Shape)) (p : Fin 50000) :
    shapeCast (⟨2, ![50000, 1]⟩ : Shape) (Host.divf (F := Ideal) (φ := .f32) one₁ (maximumf (F := Ideal) (φ := .f32) deg one₂)) hs (ix2 p 0)
      = Ideal.div 1 (max (deg (ix1 p)) 1) := by
  rw [shapeCast_apply _ hs (ix2 p 0) (ix1 p) (by
    rw [Shape.rowMajor_val_one, Shape.rowMajor_val_two]; show p.val = p.val * 1 + 0; omega)]
  show FloatOps.hostDivf (F := Ideal) (one₁ (ix1 p)) (FloatOps.maximumf (F := Ideal) (deg (ix1 p)) (one₂ (ix1 p))) = _
  rw [h₁, h₂, Ideal.hostDivf_def, Ideal.maximumf_def]

/-- Entry (0, q) of a vector laid out as a one-row matrix is the vector's entry q. -/
theorem bias_row_apply {C : ℕ} (b : (⟨1, ![C]⟩ : Shape).Idx → EReal)
    (hs : (⟨1, ![C]⟩ : Shape).ShapeCasts (⟨2, ![1, C]⟩ : Shape)) (q : Fin C) :
    shapeCast (⟨2, ![1, C]⟩ : Shape) b hs (ix2 0 q) = b (ix1 q) :=
  shapeCast_apply b hs (ix2 0 q) (ix1 q) (by
    rw [Shape.rowMajor_val_one, Shape.rowMajor_val_two]; show q.val = 0 * C + q.val; omega)

/-! ## The arrays the first kernel is entered with -/

set_option maxHeartbeats 1000000 in
/-- The neighbour sums: the program's gather and scatter-add of the node rows, the reference's own term. -/
theorem V1_agg (c : Dev nD) : V1 m ρ c main_v22
    = val_main_v13 (F := Ideal) (m ((c.tc : Thread nD τ).loc main_arg0)) (m ((c.tc : Thread nD τ).loc main_arg1)) := by
  show StableHlo.after hostOps0 (W0 m ρ c) (Proc.devRef .tc main_v22) = _
  after_results
  rfl

set_option maxHeartbeats 1000000 in
/-- The reciprocal column: 1 over the neighbour counts clamped at 1, laid out as a column. -/
theorem V1_inv (c : Dev nD) : V1 m ρ c main_v12
    = shapeCast S50000x1 (Host.divf (broadcastInDim S50000 ![] bcast_S_S50000 (constant (F := Ideal) S_ .f32 0x3F800000#32))
        (maximumf (val_main_v17 (F := Ideal) (m ((c.tc : Thread nD τ).loc main_arg1)))
          (broadcastInDim S50000 ![] bcast_S_S50000 (constant (F := Ideal) S_ .f32 0x3F800000#32)))) shapeCasts_S50000_S50000x1 := by
  show StableHlo.after hostOps0 (W0 m ρ c) (Proc.devRef .tc main_v12) = _
  after_results
  rfl

set_option maxHeartbeats 1000000 in
/-- The first bias as a one-row matrix. -/
theorem V1_bias (c : Dev nD) : V1 m ρ c main_v23
    = shapeCast S1x128 (m ((c.tc : Thread nD τ).loc main_arg4)) shapeCasts_S128_S1x128 := by
  show StableHlo.after hostOps0 (W0 m ρ c) (Proc.devRef .tc main_v23) = _
  after_results
  rfl

set_option maxHeartbeats 1000000 in
/-- The node rows are as launched: no operation before the first kernel writes them. -/
theorem V1_x (c : Dev nD) : V1 m ρ c main_arg0 = m ((c.tc : Thread nD τ).loc main_arg0) := by
  show StableHlo.after hostOps0 (W0 m ρ c) (Proc.devRef .tc main_arg0) = _
  after_results

set_option maxHeartbeats 1000000 in
/-- So are the first layer's weight matrices. -/
theorem V1_Wl (c : Dev nD) : V1 m ρ c main_arg2 = m ((c.tc : Thread nD τ).loc main_arg2) := by
  show StableHlo.after hostOps0 (W0 m ρ c) (Proc.devRef .tc main_arg2) = _
  after_results

set_option maxHeartbeats 1000000 in
theorem V1_Wr (c : Dev nD) : V1 m ρ c main_arg3 = m ((c.tc : Thread nD τ).loc main_arg3) := by
  show StableHlo.after hostOps0 (W0 m ρ c) (Proc.devRef .tc main_arg3) = _
  after_results

set_option maxHeartbeats 1000000 in
/-- The source and destination node numbers of the edges, as the first stretch of operations leaves them. -/
theorem W1_src (c : Dev nD) : W1 m ρ c (Proc.devRef .tc main_v1) = val_main_v1 (F := Ideal) (m ((c.tc : Thread nD τ).loc main_arg1)) := by
  show StableHlo.after hostOps0 (W0 m ρ c) (Proc.devRef .tc main_v1) = _
  after_results
  rfl

set_option maxHeartbeats 1000000 in
theorem W1_dst (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results
  rfl

set_option maxHeartbeats 1000000 in
theorem W1_bias2 (c : Dev nD) : W1 m ρ c (Proc.devRef .tc main_arg7) = m ((c.tc : Thread nD τ).loc main_arg7) := by
  show StableHlo.after hostOps0 (W0 m ρ c) (Proc.devRef .tc main_arg7) = _
  after_results

/-! ## What the first kernel leaves, and the arrays the second kernel is entered with -/

/-- The first kernel's output array is the reference's first layer: the kernel's reciprocal-column form of the layer, of
    the reference's own neighbour sums and counts, is the quotient form (the clamped count is never zero). -/
theorem W2_hidden (c : Dev nD) : W2 m ρ c (Proc.devRef .tc main_v24) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W2 m ρ c (Proc.devRef .tc main_v24) = (dat0 (F := Ideal) (V1 m ρ) c).arrAt 6 cfg0.N := W2_arr m ρ c 6
  rw [e, Region0.value0 (V1 m ρ) c, V1_agg, V1_inv, V1_x, V1_Wl, V1_Wr, V1_bias]
  rw [Sage.hiddenK_eq_hidden _ _ _ (val_main_v17 (F := Ideal) (m ((c.tc : Thread nD τ).loc main_arg1))) _ _ _ (m ((c.tc : Thread nD τ).loc main_arg4))
    (fun p => recip_col_apply _ _ _ (fun i => ones_apply _ _ _ i) (fun i => ones_apply _ _ _ i) _ p) (fun q => bias_row_apply _ _ q)]
  exact (Cert.ReferenceIdeal.RefValue.hidden_eq _ _ _ _ _).symm

set_option maxHeartbeats 1000000 in
/-- The second kernel reads the first kernel's output as its node rows. -/
theorem V3_x (c : Dev nD) : V3 m ρ c main_v24 = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : V3 m ρ c main_v24 = W2 m ρ c (Proc.devRef .tc main_v24) := by
    show StableHlo.after hostOps1 (W2 m ρ c) (Proc.devRef .tc main_v24) = _
    after_results
  exact e.trans (W2_hidden m ρ c)

set_option maxHeartbeats 1000000 in
/-- The reciprocal column is the one the first kernel read: it was an input window there and nothing writes it since. -/
theorem V3_inv (c : Dev nD) : V3 m ρ c main_v12 = V1 m ρ c main_v12 := by
  have e : V3 m ρ c main_v12 = W2 m ρ c (Proc.devRef .tc main_v12) := by
    show StableHlo.after hostOps1 (W2 m ρ c) (Proc.devRef .tc main_v12) = _
    after_results
  exact e.trans ((W2_arr m ρ c 1).trans (((dat0 (V1 m ρ) c).arrAt_in 1 rfl _).trans (A_eq0 (V1 m ρ) c 1)))

/-- The second layer's weight matrices are as launched: an input window of the second kernel ends as it was entered, and
    the arguments end as launched. -/
theorem V3_Wl (c : Dev nD) : V3 m ρ c main_arg5 = m ((c.tc : Thread nD τ).loc main_arg5) :=
  (((W4_arr m ρ c 3).trans (((dat1 (V3 m ρ) c).arrAt_in 3 rfl _).trans (A_eq1 (V3 m ρ) c 3))).symm).trans (W4_main_arg5 m ρ c)

theorem V3_Wr (c : Dev nD) : V3 m ρ c main_arg6 = m ((c.tc : Thread nD τ).loc main_arg6) :=
  (((W4_arr m ρ c 4).trans (((dat1 (V3 m ρ) c).arrAt_in 4 rfl _).trans (A_eq1 (V3 m ρ) c 4))).symm).trans (W4_main_arg6 m ρ c)

set_option maxHeartbeats 1000000 in
/-- The second bias as a one-row matrix. -/
theorem V3_bias (c : Dev nD) : V3 m ρ c main_v35
    = shapeCast S1x64 (m ((c.tc : Thread nD τ).loc main_arg7)) shapeCasts_S64_S1x64 := by
  show StableHlo.after hostOps1 (W2 m ρ c) (Proc.devRef .tc main_v35) = _
  after_results
  rw [show W2 m ρ c (Proc.devRef .tc main_arg7) = m ((c.tc : Thread nD τ).loc main_arg7) from
    (W2_of_ne m ρ c main_arg7 (by decide)).trans (W1_bias2 m ρ c)]
  rfl

set_option maxHeartbeats 1000000 in
/-- The second layer's neighbour sums: the same gather and scatter-add, of the first kernel's output. -/
theorem V3_agg (c : Dev nD) : V3 m ρ c main_v34 = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v34) = _
  after_results
  rw [show W2 m ρ c (Proc.devRef .tc main_v1) = val_main_v1 (F := Ideal) (m ((c.tc : Thread nD τ).loc main_arg1)) from
      (W2_of_ne m ρ c main_v1 (by decide)).trans (W1_src m ρ c),
    show W2 m ρ c (Proc.devRef .tc main_v3) = val_main_v3 (F := Ideal) (m ((c.tc : Thread nD τ).loc main_arg1)) from
      (W2_of_ne m ρ c main_v3 (by decide)).trans (W1_dst m ρ c),
    W2_hidden m ρ c]
  rfl

/-! ## The program's result -/

/-- The array the second kernel leaves is the reference's result term of the same arguments. -/
theorem result_eq (c : Dev nD) : W4 m ρ c (Proc.devRef .tc main_v36)
    = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : W4 m ρ c (Proc.devRef .tc main_v36) = (dat1 (F := Ideal) (V3 m ρ) c).arrAt 6 cfg1.N := W4_arr m ρ c 6
  rw [e, Region1.value1 (V3 m ρ) c, V3_agg, V3_inv, V1_inv, V3_x, V3_Wl, V3_Wr, V3_bias]
  rw [Sage.outputK_eq_output _ _ _ (val_main_v17 (F := Ideal) (m ((c.tc : Thread nD τ).loc main_arg1))) _ _ _ (m ((c.tc : Thread nD τ).loc main_arg7))
    (fun p => recip_col_apply _ _ _ (fun i => ones_apply _ _ _ i) (fun i => ones_apply _ _ _ i) _ p) (fun q => bias_row_apply _ _ q)]
  have hdeg : val_main_v43 (F := Ideal) (m ((c.tc : Thread nD τ).loc main_arg1)) = val_main_v17 (F := Ideal) (m ((c.tc : Thread nD τ).loc main_arg1)) := rfl
  rw [Cert.ReferenceIdeal.RefValue.output_eq, hdeg]

end Cert.KernelIdeal.HostValue

end
-- ==== Proof.lean ====
/-
  A two-layer graph convolution that averages over neighbours: the kernel program against the plain reference.

  Both programs gather each edge's source row, scatter-add the rows onto the edges' destination nodes, count each node's
  incoming edges the same way, and apply twice the layer "mean of the neighbours times one weight matrix, plus the node's
  own row times another, plus a bias" (the first time clamped below at 0). They differ in two places only. The kernel
  program runs each layer's dense part as a kernel over 25 blocks of 2000 nodes, where the reference runs it on whole
  arrays; and it forms the mean by multiplying the neighbour sums by the reciprocal of the clamped count, computed once per
  node, where the reference divides by the clamped count. Entry by entry the two layers are the same function of the same
  neighbour sums and counts (Proof/SageSpec.lean: the clamped count is at least 1, so it is never zero, and then
  `a * (1 / e) = a / e` on all extended reals), the gather, the scatter-add and the counts are the same operations of the
  same arguments on both sides, and so the two results are equal as extended reals for every input: finiteness of the
  inputs is not used.

  The three runs: the kernel program's and its idealization's frames are the generated ones; the reference's is its
  generated run with the result dropped. The idealization rewrote nothing, so there is nothing to preserve. For the
  value claim the kernel program's run is taken with its result buffer named (Proof/KernelRun.lean), that buffer is read
  back through the two kernels and the operations between them (Proof/KernelRegion0.lean, KernelRegion1.lean,
  KernelValue.lean), and the reference's result is read layer by layer (Proof/RefValue.lean).
-/
import proofs.«133844_j73495480369260_1_alg».proof.Defs
import proofs.«133844_j73495480369260_1_alg».proof.Proof.Gen.Kernel
import proofs.«133844_j73495480369260_1_alg».proof.Proof.Gen.Kernel.Skeleton
import proofs.«133844_j73495480369260_1_alg».proof.Proof.Gen.Kernel.Launch
import proofs.«133844_j73495480369260_1_alg».proof.Proof.Gen.Kernel.Points
import proofs.«133844_j73495480369260_1_alg».proof.Proof.Gen.Kernel.Frame
import proofs.«133844_j73495480369260_1_alg».proof.Proof.Gen.KernelIdeal
import proofs.«133844_j73495480369260_1_alg».proof.Proof.Gen.KernelIdeal.Skeleton
import proofs.«133844_j73495480369260_1_alg».proof.Proof.Gen.KernelIdeal.Launch
import proofs.«133844_j73495480369260_1_alg».proof.Proof.Gen.KernelIdeal.Points
import proofs.«133844_j73495480369260_1_alg».proof.Proof.Gen.KernelIdeal.Frame
import proofs.«133844_j73495480369260_1_alg».proof.Proof.Gen.ReferenceIdeal
import proofs.«133844_j73495480369260_1_alg».proof.Proof.Gen.ReferenceIdeal.Run
import proofs.«133844_j73495480369260_1_alg».proof.Proof.Gen.ReferenceIdeal.Read
import proofs.«133844_j73495480369260_1_alg».proof.Proof.Gen.Pre_finite_inputs
import proofs.«133844_j73495480369260_1_alg».proof.Proof.KernelRun
import proofs.«133844_j73495480369260_1_alg».proof.Proof.KernelValue
import proofs.«133844_j73495480369260_1_alg».proof.Proof.RefValue
import Idealize.ShloMosaic.Adequacy
import Idealize.ShloMosaic.Init

noncomputable section

namespace Cert.Proof

open Idealize.ShloMosaic Idealize.ShloMosaic.TcCoe Idealize.SL.Sem

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel program and the reference end with the same result: both end at the reference's
    result term of the kernel program's arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
